-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x32 : Shape := ⟨2, ![100000, 32]⟩
abbrev S256x256 : Shape := ⟨2, ![256, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S100000x256 .f32) (main_arg1 : FVec F S100000x32 .f32) (main_arg2 : FVec F S256x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S100000x256 : Shape := ⟨2, ![100000, 256]⟩
abbrev S100000x32 : Shape := ⟨2, ![100000, 32]⟩
abbrev S256x256 : Shape := ⟨2, ![256, 256]⟩
abbrev S4000x256 : Shape := ⟨2, ![4000, 256]⟩
abbrev S4000x32 : Shape := ⟨2, ![4000, 32]⟩
abbrev S4000 : Shape := ⟨1, ![4000]⟩
abbrev S4000x1 : Shape := ⟨2, ![4000, 1]⟩

abbrev nBuf : Space → Nat
  | .hbm => 5
  | .vmem => 7
  | .smem => 0
  | _ => 0

abbrev bufTy : (tb : Table) → Fin (tcTables nBuf tb) → BufTy
  | .hbm, ⟨0, _⟩ => ⟨S100000x256, .f32⟩
  | .hbm, ⟨1, _⟩ => ⟨S100000x32, .f32⟩
  | .hbm, ⟨2, _⟩ => ⟨S256x256, .f32⟩
  | .hbm, ⟨3, _⟩ => ⟨S256x256, .bf16⟩
  | .hbm, ⟨4, _⟩ => ⟨S100000x256, .f32⟩
  | .local _ .vmem, ⟨0, _⟩ => ⟨S4000x256, .f32⟩
  | .local _ .vmem, ⟨1, _⟩ => ⟨S4000x256, .f32⟩
  | .local _ .vmem, ⟨2, _⟩ => ⟨S4000x32, .f32⟩
  | .local _ .vmem, ⟨3, _⟩ => ⟨S4000x32, .f32⟩
  | .local _ .vmem, ⟨4, _⟩ => ⟨S256x256, .bf16⟩
  | .local _ .vmem, ⟨5, _⟩ => ⟨S4000x256, .f32⟩
  | .local _ .vmem, ⟨6, _⟩ => ⟨S4000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S4000x256_S4000x256_0_0 : ∀ a, (![0, 0] : Fin 2 → Nat) a + S4000x256.size a ≤ S4000x256.size a
  h_S4000x256 : 0 < S4000x256.numel
  inb_S4000x32_S4000x32_0_0 : ∀ a, (![0, 0] : Fin 2 → Nat) a + S4000x32.size a ≤ S4000x32.size a
  h_S4000x32 : 0 < S4000x32.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S4000x32_S4000 : S4000x32.Reduces [1] S4000
  shapeCasts_S4000_S4000x1 : S4000.ShapeCasts S4000x1
  broadcasts_S4000x1_S4000x256 : S4000x1.Broadcasts S4000x256
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S100000x32.size a
  hwx0_1 : ∀ i : grid0.Coords, EltTy.bits .f32 = 32 ∨ (Rect.block (s := S100000x32) S4000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S100000x256.size a
  hwx0_3 : ∀ i : grid0.Coords, EltTy.bits .f32 = 32 ∨ (Rect.block (s := S100000x256) S4000x256.size (cc0_transform_3 i) (hinb0_3 i)).WholeWords (EltTy.packing .f32)

variable [Facts₀]

def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x256 : Shape := ⟨2, ![100000, 256]⟩
abbrev S100000x32 : Shape := ⟨2, ![100000, 32]⟩
abbrev S256x256 : Shape := ⟨2, ![256, 256]⟩
abbrev S_ : Shape := ⟨0, ![]⟩
abbrev S100000 : Shape := ⟨1, ![100000]⟩
abbrev S100000x1 : Shape := ⟨2, ![100000, 1]⟩

abbrev nBuf : Space → Nat
  | .hbm => 18
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x32, .f32⟩
  | .hbm, ⟨2, _⟩ => ⟨S256x256, .f32⟩
  | .hbm, ⟨3, _⟩ => ⟨S100000x256, .f32⟩
  | .hbm, ⟨4, _⟩ => ⟨S_, .f32⟩
  | .hbm, ⟨5, _⟩ => ⟨S100000, .f32⟩
  | .hbm, ⟨6, _⟩ => ⟨S100000x1, .f32⟩
  | .hbm, ⟨7, _⟩ => ⟨S_, .f32⟩
  | .hbm, ⟨8, _⟩ => ⟨S100000, .f32⟩
  | .hbm, ⟨9, _⟩ => ⟨S100000x1, .f32⟩
  | .hbm, ⟨10, _⟩ => ⟨S100000x256, .f32⟩
  | .hbm, ⟨11, _⟩ => ⟨S100000x256, .f32⟩
  | .hbm, ⟨12, _⟩ => ⟨S100000x256, .f32⟩
  | .hbm, ⟨13, _⟩ => ⟨S100000x256, .f32⟩
  | .hbm, ⟨14, _⟩ => ⟨S100000x256, .f32⟩
  | .hbm, ⟨15, _⟩ => ⟨S_, .f32⟩
  | .hbm, ⟨16, _⟩ => ⟨S100000x256, .f32⟩
  | .hbm, ⟨17, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x256 : S_.BroadcastsInDim S100000x256 (![] : Fin 0 → Fin S100000x256.rank)
  dot_S100000x256_S256x256_S100000x256_1_0_0_1_n_n_wf : DotDims.WF S100000x256 S256x256 S100000x256 [1] [0] [0] [1] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.Spec.lean ====
/-
  The value both programs compute, as ONE function of the three argument arrays.

  For a node `n` and an output feature `d`, write
    `prod n d  = ∑ k, features[n, k] · W[k, d]`      (entry (n, d) of the matrix product, a sum of 256 products),
    `hi n`      = the largest of the node's 32 adjacency weights (a fold of `max` from the word `0xFF800000`, −∞),
    `lo n`      = the smallest of them                    (a fold of `min` from the word `0x7F800000`, +∞).
  The result at `(n, d)` is `max (max (hi n · prod n d) (lo n · prod n d)) 0`: the largest of `0` and the
  products `a · prod n d` over the node's weights `a`, which is attained at an extreme weight because
  `a ↦ a · prod n d` is monotone or antitone.  Both programs spell exactly this expression, so no algebraic law is
  needed to join them and the input's finiteness is never used; they differ in tiling (the kernel works on blocks
  of 4000 rows) and in how a row reduction and a matrix product are written down.  The three float words are kept as
  words: the same word stands on both sides and is never evaluated.
-/
import Idealize.ShloMosaic.PureOps.Ideal
import Idealize.ShloMosaic.Lib.ValueIdx

noncomputable section

namespace Cert.NeighborMax

open Idealize.ShloMosaic Idealize.ShloMosaic.ValueIdx

/-- The largest of node `n`'s 32 adjacency weights, folded from the value of the word `0xFF800000`. -/
def hi (adj : FVec Ideal ⟨2, ![100000, 32]⟩ .f32) (n : Fin 100000) : EReal :=
  (Finset.univ : Finset (Fin 32)).fold max (Ideal.ofBits .f32 0xFF800000#32) (fun k => adj (ix2 n k))

/-- The smallest of node `n`'s 32 adjacency weights, folded from the value of the word `0x7F800000`. -/
def lo (adj : FVec Ideal ⟨2, ![100000, 32]⟩ .f32) (n : Fin 100000) : EReal :=
  (Finset.univ : Finset (Fin 32)).fold min (Ideal.ofBits .f32 0x7F800000#32) (fun k => adj (ix2 n k))

/-- Entry `(n, d)` of the product `features · W`. -/
def prod (feat : FVec Ideal ⟨2, ![100000, 256]⟩ .f32) (W : FVec Ideal ⟨2, ![256, 256]⟩ .f32) (n : Fin 100000) (d : Fin 256) : EReal :=
  ∑ k : Fin 256, feat (ix2 n k) * W (ix2 k d)

/-- The result array: at `(n, d)` the largest of `0` and the node's extreme weights times `prod n d`. -/
def G (feat : FVec Ideal ⟨2, ![100000, 256]⟩ .f32) (adj : FVec Ideal ⟨2, ![100000, 32]⟩ .f32) (W : FVec Ideal ⟨2, ![256, 256]⟩ .f32) :
    FVec Ideal ⟨2, ![100000, 256]⟩ .f32 := fun i =>
  max (max (hi adj (i 0) * prod feat W (i 0) (i 1)) (lo adj (i 0) * prod feat W (i 0) (i 1))) (Ideal.ofBits .f32 0x00000000#32)

end Cert.NeighborMax

end
-- ==== Proof.RefIsSpec.lean ====
/-
  The reference computes the specification.  Read one operation at a time, the reference's result at `(n, d)` is
  `max (max (A · P) (B · P)) 0` with `P` the product's entry `(n, d)` (the host's `dot_general` is the sum over the one
  contracted axis), and `A`, `B` the host's max- and min-reductions of row `n` of the adjacency weights, each
  broadcast twice (to a column, then across the 256 features).  A host reduction over one axis with a commutative,
  associative body is the fold over that axis's coordinates from the initial value; the coordinate inserted at `k`
  over the result index `n` is `(n, k)`.  So `A = hi n`, `B = lo n`, `P = prod n d`.
-/
import proofs.«417792_j10720238371128_3_alg».proof.Proof.Gen.ReferenceIdeal.Read
import proofs.«417792_j10720238371128_3_alg».proof.Proof.Spec

noncomputable section

namespace Cert.NeighborMax.Reference

open Cert.ReferenceIdeal Cert.ReferenceIdeal.Gen Cert.ReferenceIdeal.Read
open Idealize.ShloMosaic Idealize.ShloMosaic.ValueIdx

/-- The shape fact the fold over one axis is indexed by: dropping axis 1 of `[100000, 32]` leaves `[100000]`. -/
theorem reduces_rows : S100000x32.Reduces [1] S100000 := by decide

/-- Over the result index `n`, the source index whose dropped coordinate is `k` is `(n, k)`. -/
theorem lift_eq (j : S100000.Idx) (k : Fin 32) : reduces_rows.lift j k = ix2 (j 0) k :=
  funext fun a => Fin.ext (by match a with | ⟨0, _⟩ => rfl | ⟨1, _⟩ => rfl)

/-- The host's max-reduction of the weights along a row is the row's largest weight. -/
theorem rowmax_eq (adj : FVec Ideal S100000x32 .f32) (j : S100000.Idx) :
    val_main_v1 (F := Ideal) adj j = hi adj (j 0) := by
  unfold val_main_v1
  rw [Host.reduce_eq_fold_single FloatOps.maximumf adj _ reducesTo_S100000x32_S100000_d1 reduces_rows h_S_ j]
  show (Finset.univ : Finset (Fin 32)).fold max (Ideal.ofBits .f32 0xFF800000#32) (adj ∘ reduces_rows.lift j) = _
  have e : adj ∘ reduces_rows.lift j = fun k => adj (ix2 (j 0) k) := funext fun k => congrArg adj (lift_eq j k)
  rw [e]
  rfl

/-- The host's min-reduction of the weights along a row is the row's smallest weight. -/
theorem rowmin_eq (adj : FVec Ideal S100000x32 .f32) (j : S100000.Idx) :
    val_main_v3 (F := Ideal) adj j = lo adj (j 0) := by
  unfold val_main_v3
  rw [Host.reduce_eq_fold_single FloatOps.minimumf adj _ reducesTo_S100000x32_S100000_d1 reduces_rows h_S_ j]
  show (Finset.univ : Finset (Fin 32)).fold min (Ideal.ofBits .f32 0x7F800000#32) (adj ∘ reduces_rows.lift j) = _
  have e : adj ∘ reduces_rows.lift j = fun k => adj (ix2 (j 0) k) := funext fun k => congrArg adj (lift_eq j k)
  rw [e]
  rfl

/-- The left operand's index in the product's sum is `(n, k)`, the right operand's `(k, d)`. -/
theorem lidx_eq (i : S100000x256.Idx) (k : Fin 256) : lidx_main_v0 i k = ix2 (i 0) k :=
  funext fun a => Fin.ext (by match a with | ⟨0, _⟩ => rfl | ⟨1, _⟩ => rfl)
theorem ridx_eq (i : S100000x256.Idx) (k : Fin 256) : ridx_main_v0 i k = ix2 k (i 1) :=
  funext fun a => Fin.ext (by match a with | ⟨0, _⟩ => rfl | ⟨1, _⟩ => rfl)

/-- THE REFERENCE IS THE SPECIFICATION: its last stage, as a function of the three arguments, is `G`. -/
theorem stage_eq (feat : FVec Ideal S100000x256 .f32) (adj : FVec Ideal S100000x32 .f32) (W : FVec Ideal S256x256 .f32) :
    val_main_v11 (F := Ideal) feat adj W = G feat adj W := by
  funext i
  rw [val_main_v11_apply, val_main_v9_apply, val_main_v6_apply, val_main_v8_apply, val_main_v5_apply, val_main_v7_apply,
    val_main_v2_apply, val_main_v4_apply, val_main_v0_apply, val_main_v10_apply, val_main_cst_1_apply, rowmax_eq, rowmin_eq]
  simp only [lidx_eq, ridx_eq]
  rfl

end Cert.NeighborMax.Reference

end
-- ==== Proof.LibBroadcastColumn.lean ====
/-
  One column broadcast over many: a `[a, 1]` array broadcast to `[a, b]` reads, at `(p, c)`, the operand's one
  column at row `p`.  (The companion of the library's row form `broadcastTo_1b_ab_apply`: a per-row bias added to
  every column of a matrix.)
-/
import Idealize.ShloMosaic.Lib.Pipeline.Value
import Idealize.ShloMosaic.Lib.ValueIdx

namespace Idealize.ShloMosaic.ValueIdx

variable {α : Type}

/-- A `[a, 1]` array broadcast to `[a, b]` reads, at `(p, c)`, the operand's one column at `p`: the row axis is kept
    (or has extent one, and then `p = 0`), the unit column axis reads its only index. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumnCast.lean ====
/-
  A vector stood up as a column: an `[a]` array cast to `[a, 1]` reads, at `(i, u)`, the operand at `i`, whatever
  the unit coordinate `u`.  (The trailing-axis companion of the library's leading-axis form `shapeCast_a_1a_apply`:
  what `keepdims=True` does to a row reduction's result.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`: both indices have row-major position
    `i`, since the unit coordinate is `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibRowMin.lean ====
/-
  A row's minimum at the ideal values.  A float `vector.multi_reduction <minimumf>` over ONE axis is, at each reduced
  index, the fold of `min` from the accumulator's value over that axis's coordinates — the mirror image of the
  library's reading of a `<maximumf>` reduction (`Ideal.multiReduction_maximumf_single`), with the same proof: `min`
  on the extended reals commutes and associates, so the fold over the set of source indices lying over `j` is the
  fold over the dropped axis's coordinates.
-/
import Idealize.ShloMosaic.PureOps.Ideal.Laws

namespace Idealize.ShloMosaic.Ideal

variable {φ : FTy}

/-- A float `vector.multi_reduction <minimumf>` over one axis, read at `Ideal`: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.BodyAtIndex.lean ====
/-
  The kernel body's stored value, read at an index.  On one block — `x0` 4000 rows of the features, `x1` the same
  4000 rows of the adjacency weights, `x2` the whole weight matrix — the body stores, at row `p` and feature `q`,
      `max (max (A p · P p q) (B p · P p q)) 0`
  where `P p q = ∑ k, x0[p, k] · x2[k, q]` (the matrix unit's product into a zero accumulator is the plain sum over the
  one contracted axis; narrowing the features to bf16 is the identity on extended reals, and the cast of `x2` to its
  own shape is the identity), `A p` the fold of `max` over row `p` of `x1` from the word `0xFF800000` and `B p` the
  fold of `min` from `0x7F800000` (each row reduction stood up as a column and broadcast across the 256 features reads
  row `p`'s value at every `q`).
-/
import proofs.«417792_j10720238371128_3_alg».proof.Proof.Gen.KernelIdeal.Skeleton
import proofs.«417792_j10720238371128_3_alg».proof.Proof.LibBroadcastColumn
import proofs.«417792_j10720238371128_3_alg».proof.Proof.LibColumnCast
import proofs.«417792_j10720238371128_3_alg».proof.Proof.LibRowMin
import Idealize.ShloMosaic.Lib.ValueIdx
import Idealize.ShloMosaic.Lib.Pipeline.Value
import Idealize.ShloMosaic.PureOps.Ideal.Laws

noncomputable section

namespace Cert.NeighborMax.Body

open Cert.KernelIdeal Cert.KernelIdeal.Gen
open Idealize.ShloMosaic Idealize.ShloMosaic.ValueIdx

/-! ## The product's operand indices -/

theorem lhs_axis0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem lhs_axis1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
theorem rhs_axis0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
theorem rhs_axis1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- The block's product into a zero accumulator, at `(p, q)`: the sum over `k` of row `p` of the left operand against
    column `q` of the right. -/
theorem product_at (l : FVec Ideal S4000x256 .bf16) (r : FVec Ideal S256x256 .bf16) (p : Fin 4000) (q : Fin 256) :
    matmul dot_S4000x256_S256x256_S4000x256_1_0_0_1_n_n none l r (constant S4000x256 .f32 0x00000000#32) (ix2 p q)
      = ∑ k : Fin 256, l (ix2 p k) * r (ix2 k q) := by
  simp only [matmul]
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p q) ((contrEquiv1 dot_S4000x256_S256x256_S4000x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S4000x256_S256x256_S4000x256_1_0_0_1_n_n.rhsIdx (ix2 p q) ((contrEquiv1 dot_S4000x256_S256x256_S4000x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The row reductions, stood up as columns and broadcast across the features -/

/-- Over the reduced index `p`, the source index whose dropped coordinate is `k` is `(p, k)`. -/
theorem lift_eq (p : Fin 4000) (k : Fin 32) : (reduces_S4000x32_S4000 : S4000x32.Reduces [1] S4000).lift (ix1 p) k = ix2 p k :=
  funext fun a => Fin.ext (by match a with | ⟨0, _⟩ => rfl | ⟨1, _⟩ => rfl)

/-- The row maximum, as the body broadcasts it, at `(p, q)`: the fold of `max` over row `p`. -/
theorem rowmax_at (x1 : FVec Ideal S4000x32 .f32) (p : Fin 4000) (q : Fin 256) :
    broadcastTo S4000x256 (shapeCast S4000x1 (multiReduction .maximumf [1] S4000 x1 0xFF800000#32 reduces_S4000x32_S4000 (.inl rfl) rfl)
        shapeCasts_S4000_S4000x1) broadcasts_S4000x1_S4000x256 (ix2 p q)
      = (Finset.univ : Finset (Fin 32)).fold max (Ideal.ofBits .f32 0xFF800000#32) (fun k => x1 (ix2 p k)) := by
  rw [broadcastTo_a1_ab_apply, shapeCast_a_a1_apply]
  refine (Ideal.multiReduction_maximumf_single x1 0xFF800000#32 reduces_S4000x32_S4000 (.inl rfl) rfl (ix1 p)).trans ?_
  show (Finset.univ : Finset (Fin 32)).fold max (Ideal.ofBits .f32 0xFF800000#32)
      (x1 ∘ (reduces_S4000x32_S4000 : S4000x32.Reduces [1] S4000).lift (ix1 p)) = _
  have e : x1 ∘ (reduces_S4000x32_S4000 : S4000x32.Reduces [1] S4000).lift (ix1 p) = fun k => x1 (ix2 p k) :=
    funext fun k => congrArg x1 (lift_eq p k)
  rw [e]
  rfl

/-- The row minimum likewise: the fold of `min` over row `p`. -/
theorem rowmin_at (x1 : FVec Ideal S4000x32 .f32) (p : Fin 4000) (q : Fin 256) :
    broadcastTo S4000x256 (shapeCast S4000x1 (multiReduction .minimumf [1] S4000 x1 0x7F800000#32 reduces_S4000x32_S4000 (.inl rfl) rfl)
        shapeCasts_S4000_S4000x1) broadcasts_S4000x1_S4000x256 (ix2 p q)
      = (Finset.univ : Finset (Fin 32)).fold min (Ideal.ofBits .f32 0x7F800000#32) (fun k => x1 (ix2 p k)) := by
  rw [broadcastTo_a1_ab_apply, shapeCast_a_a1_apply]
  refine (Ideal.multiReduction_minimumf_single x1 0x7F800000#32 reduces_S4000x32_S4000 (.inl rfl) rfl (ix1 p)).trans ?_
  show (Finset.univ : Finset (Fin 32)).fold min (Ideal.ofBits .f32 0x7F800000#32)
      (x1 ∘ (reduces_S4000x32_S4000 : S4000x32.Reduces [1] S4000).lift (ix1 p)) = _
  have e : x1 ∘ (reduces_S4000x32_S4000 : S4000x32.Reduces [1] S4000).lift (ix1 p) = fun k => x1 (ix2 p k) :=
    funext fun k => congrArg x1 (lift_eq p k)
  rw [e]
  rfl

/-! ## The stored value -/

/-- The product as the body forms it — the features narrowed to bf16, the weights cast to their own shape —, at
    `(p, q)`: both changes are the identity on the values, so it is the plain sum. -/
theorem body_product_at (x0 : FVec Ideal S4000x256 .f32) (x2 : FVec Ideal S256x256 .bf16) (p : Fin 4000) (q : Fin 256) :
    matmul (F := Ideal) dot_S4000x256_S256x256_S4000x256_1_0_0_1_n_n none (truncf (F := Ideal) .bf16 x0 bitsLt_bf16_f32) (shapeCast S256x256 x2 shapeCasts_S256x256_S256x256)
        (constant (F := Ideal) S4000x256 .f32 0x00000000#32) (ix2 p q)
      = ∑ k : Fin 256, x0 (ix2 p k) * x2 (ix2 k q) := by
  rw [product_at, shapeCast_self]
  rfl

/-- THE BODY'S STORED VALUE at row `p`, feature `q` of the block. -/
theorem stored_at (x0 : Vec Ideal S4000x256 .f32) (x1 : Vec Ideal S4000x32 .f32) (x2 : Vec Ideal S256x256 .bf16) (p : Fin 4000) (q : Fin 256) :
    k0_pay1 (F := Ideal) x0 x1 x2 (ix2 p q)
      = max (max ((Finset.univ : Finset (Fin 32)).fold max (Ideal.ofBits .f32 0xFF800000#32) (fun k => x1 (ix2 p k))
                    * ∑ k : Fin 256, x0 (ix2 p k) * x2 (ix2 k q))
                 ((Finset.univ : Finset (Fin 32)).fold min (Ideal.ofBits .f32 0x7F800000#32) (fun k => x1 (ix2 p k))
                    * ∑ k : Fin 256, x0 (ix2 p k) * x2 (ix2 k q)))
            (Ideal.ofBits .f32 0x00000000#32) := by
  unfold k0_pay1
  exact congrArg₂ max
    (congrArg₂ max (congrArg₂ (· * ·) (rowmax_at x1 p q) (body_product_at x0 x2 p q))
      (congrArg₂ (· * ·) (rowmin_at x1 p q) (body_product_at x0 x2 p q)))
    rfl

end Cert.NeighborMax.Body

end
-- ==== Proof.BlocksToArray.lean ====
/-
  From blocks to the whole array.  The grid has 25 points; point `t` works on rows `4000·t … 4000·t + 3999`: it is
  handed block `t` of the features and of the adjacency weights and the whole weight matrix (which the host narrowed
  to bf16 before the launch — the identity on extended reals), and writes back block `t` of the result.  A block's
  coordinate is always (block index) × (block size) + (coordinate inside the block), so row `p` of point `t`'s blocks
  is row `4000·t + p` of the arrays, and what the body stores at `(p, q)` is the specification at `(4000·t + p, q)`.
  Every row `n` lies in the block of point `n / 4000`, so the 25 blocks cover the result array, which therefore ends
  holding the specification everywhere.
-/
import proofs.«417792_j10720238371128_3_alg».proof.Proof.Gen.KernelIdeal.Value
import proofs.«417792_j10720238371128_3_alg».proof.Proof.BodyAtIndex
import proofs.«417792_j10720238371128_3_alg».proof.Proof.Spec

noncomputable section

namespace Cert.NeighborMax.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- The printed index maps, decided over the 25 points: the features', the adjacency's and the result's blocks move
    together down the rows (block index `t`), none moves along the columns, and the weight matrix stays put. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks, by their literal types -/

/-- Point `t`'s block of the features, of the adjacency weights, and the weight matrix as staged. -/
abbrev featBlk (c : Dev nD) (t : Fin cfg0.N) : Vec Ideal S4000x256 .f32 := iblk m c 0 t
abbrev adjBlk (c : Dev nD) (t : Fin cfg0.N) : Vec Ideal S4000x32 .f32 := iblk m c 1 t
abbrev wBlk (c : Dev nD) (t : Fin cfg0.N) : Vec Ideal S256x256 .bf16 := iblk m c 2 t

/-- Row `p` of point `t`'s feature block is row `n = 4000·t + p` of the features. -/
theorem featBlk_at (c : Dev nD) (t : Fin cfg0.N) (p : Fin 4000) (k : Fin 256) (n : Fin 100000) (hn : n.val = t.val * 4000 + p.val) :
    featBlk m c t (ix2 p k) = m ((c : Thread nD τ).loc main_arg0) (ix2 n k) := by
  show V m c main_arg0 (((cfg0.win 0).blk t).view.emb (ix2 p k)) = _
  rw [V_main_arg0]
  refine congrArg _ (funext fun a => Fin.ext ?_)
  obtain ⟨e00, e01, -, -, -, -, -, -⟩ := index_facts t
  match a with
  | ⟨0, _⟩ => show win0_0.index t (0 : Fin 2) * 4000 + 1 * p.val = n.val; omega
  | ⟨1, _⟩ => show win0_0.index t (1 : Fin 2) * 256 + 1 * k.val = k.val; omega

/-- Row `p` of point `t`'s adjacency block is row `n = 4000·t + p` of the adjacency weights. -/
theorem adjBlk_at (c : Dev nD) (t : Fin cfg0.N) (p : Fin 4000) (k : Fin 32) (n : Fin 100000) (hn : n.val = t.val * 4000 + p.val) :
    adjBlk m c t (ix2 p k) = m ((c : Thread nD τ).loc main_arg1) (ix2 n k) := by
  show V m c main_arg1 (((cfg0.win 1).blk t).view.emb (ix2 p k)) = _
  rw [V_main_arg1]
  refine congrArg _ (funext fun a => Fin.ext ?_)
  obtain ⟨-, -, e10, e11, -, -, -, -⟩ := index_facts t
  match a with
  | ⟨0, _⟩ => show win0_1.index t (0 : Fin 2) * 4000 + 1 * p.val = n.val; omega
  | ⟨1, _⟩ => show win0_1.index t (1 : Fin 2) * 32 + 1 * k.val = k.val; omega

/-- The weight matrix as the region finds it: the host's narrowing of the argument to bf16, which changes no value. -/
theorem weights_found (c : Dev nD) :
    (V m c main_v0 : S256x256.Idx → EReal) = m ((c : Thread nD τ).loc main_arg2) := by
  dsimp only [Gen.V, Gen.hostOps0]; after_results; rfl

/-- The staged weight matrix is the whole argument, at every point. -/
theorem wBlk_at (c : Dev nD) (t : Fin cfg0.N) (k : Fin 256) (q : Fin 256) :
    wBlk m c t (ix2 k q) = m ((c : Thread nD τ).loc main_arg2) (ix2 k q) := by
  show V m c main_v0 (((cfg0.win 2).blk t).view.emb (ix2 k q)) = _
  rw [← weights_found m c]
  refine congrArg _ (funext fun a => Fin.ext ?_)
  obtain ⟨-, -, -, -, e20, e21, -, -⟩ := index_facts t
  match a with
  | ⟨0, _⟩ => show win0_2.index t (0 : Fin 2) * 256 + 1 * k.val = k.val; omega
  | ⟨1, _⟩ => show win0_2.index t (1 : Fin 2) * 256 + 1 * q.val = q.val; omega

/-! ## What a point writes back -/

/-- The body's stored value on point `t`'s blocks, at `(p, q)`, is the specification at `(4000·t + p, q)`. -/
theorem stored_is_spec (c : Dev nD) (t : Fin cfg0.N) (p : Fin 4000) (q : Fin 256) (n : Fin 100000) (hn : n.val = t.val * 4000 + p.val) :
    k0_pay1 (F := Ideal) (featBlk m c t) (adjBlk m c t) (wBlk m c t) (ix2 p q)
      = G (m ((c : Thread nD τ).loc main_arg0)) (m ((c : Thread nD τ).loc main_arg1)) (m ((c : Thread nD τ).loc main_arg2)) (ix2 n q) := by
  rw [Body.stored_at]
  unfold G hi lo prod
  simp only [featBlk_at m c t p _ n hn, adjBlk_at m c t p _ n hn, wBlk_at m c t]

/-- WHAT POINT `t` WRITES BACK is block `t` of the specification. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Value.flushed3]
  unfold out0_3
  rw [View.canon_unit_zero origin_zero]
  simp only [View.ld_unit_zero (S := S4000x256) origin_zero, View.ld_unit_zero (S := S4000x32) origin_zero,
    View.ld_unit_zero (S := S256x256) origin_zero]
  funext j
  have hj0 : (j 0).val < 4000 := (j 0).isLt
  have hj1 : (j 1).val < 256 := (j 1).isLt
  have ht : t.val < 25 := lt_of_lt_of_eq t.isLt N_0
  obtain ⟨-, -, -, -, -, -, e30, e31⟩ := index_facts t
  have hemb : ((cfg0.win 3).blk t).view.emb j
      = ix2 (⟨t.val * 4000 + (j 0).val, by omega⟩ : Fin 100000) (⟨(j 1).val, hj1⟩ : Fin 256) := by
    funext a; apply Fin.ext
    match a with
    | ⟨0, _⟩ => show win0_3.index t (0 : Fin 2) * 4000 + 1 * (j 0).val = t.val * 4000 + (j 0).val; omega
    | ⟨1, _⟩ => show win0_3.index t (1 : Fin 2) * 256 + 1 * (j 1).val = (j 1).val; omega
  show k0_pay1 (F := Ideal) (featBlk m c t) (adjBlk m c t) (wBlk m c t) j
    = G (m ((c : Thread nD τ).loc main_arg0)) (m ((c : Thread nD τ).loc main_arg1)) (m ((c : Thread nD τ).loc main_arg2))
        (((cfg0.win 3).blk t).view.emb j)
  have hsplit : (j : S4000x256.Idx) = ix2 (⟨(j 0).val, hj0⟩ : Fin 4000) (⟨(j 1).val, hj1⟩ : Fin 256) :=
    funext fun a => Fin.ext (by match a with | ⟨0, _⟩ => rfl | ⟨1, _⟩ => rfl)
  exact ((congrArg (k0_pay1 (F := Ideal) (featBlk m c t) (adjBlk m c t) (wBlk m c t)) hsplit).trans
      (stored_is_spec m c t ⟨(j 0).val, hj0⟩ ⟨(j 1).val, hj1⟩ ⟨t.val * 4000 + (j 0).val, by omega⟩ rfl)).trans
    (congrArg (G (m ((c : Thread nD τ).loc main_arg0)) (m ((c : Thread nD τ).loc main_arg1)) (m ((c : Thread nD τ).loc main_arg2)))
      hemb.symm)

/-! ## The cover, and the array after the run -/

/-- An index of the result array is in point `t`'s block iff each coordinate is in the block's range on its axis. -/
theorem mem_blk (t : Fin cfg0.N) (i : S100000x256.Idx) :
    i ∈ ((cfg0.win 3).blk t).view.set ↔ ∀ a : Fin 2, win0_3.index t a * S4000x256.size a ≤ (i a).val
      ∧ (i a).val < win0_3.index t a * S4000x256.size a + S4000x256.size a := by
  show i ∈ ((View.whole main_v1).slice (win0_3.rect t)).set ↔ _
  rw [View.set_slice_whole, Rect.mem_set_unit]
  exact Iff.rfl

/-- Every index of the result array lies in the block of the point that its row, divided by 4000, names. -/
theorem covered (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have hN : cfg0.N = 25 := N_0
  have hlt : (i 0).val / 4000 < cfg0.N := by rw [hN]; omega
  refine ⟨⟨(i 0).val / 4000, hlt⟩, flush0_3 _, ?_⟩
  rw [mem_blk]
  obtain ⟨-, -, -, -, -, -, e30, e31⟩ := index_facts ⟨(i 0).val / 4000, hlt⟩
  have e30' : win0_3.index ⟨(i 0).val / 4000, hlt⟩ (0 : Fin 2) = (i 0).val / 4000 := e30
  intro a
  match a with
  | ⟨0, _⟩ =>
    show win0_3.index ⟨(i 0).val / 4000, hlt⟩ (0 : Fin 2) * 4000 ≤ (i 0).val
      ∧ (i 0).val < win0_3.index ⟨(i 0).val / 4000, hlt⟩ (0 : Fin 2) * 4000 + 4000
    omega
  | ⟨1, _⟩ =>
    show win0_3.index ⟨(i 0).val / 4000, hlt⟩ (1 : Fin 2) * 256 ≤ (i 1).val
      ∧ (i 1).val < win0_3.index ⟨(i 0).val / 4000, hlt⟩ (1 : Fin 2) * 256 + 256
    omega

/-- THE RESULT ARRAY after the run is the specification of the argument arrays. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, read: the result at the specification of the arguments, the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.NeighborMax.Kernel

end
-- ==== Proof.lean ====
/-
  Neighbour aggregation: for every node `n` and output feature `d`,
      out[n, d] = max (max (hi n · P[n, d]) (lo n · P[n, d])) 0,
  with `P = features · W` (a sum of 256 products per entry) and `hi n`, `lo n` the largest and smallest of the node's 32
  adjacency weights.  The kernel computes it 4000 rows at a time over a grid of 25 points, the products on the matrix
  unit from bf16 operands into an f32 accumulator; the reference computes it whole on the host.  On the extended reals a
  change of float format is the identity, the matrix unit's product into a zero accumulator and the host's `dot_general`
  are the same finite sum, and a row reduction by `max` (from −∞) or `min` (from +∞) is the same fold of a commutative,
  associative operation whichever program writes it.  Both programs therefore spell ONE expression (`Spec.lean`'s `G`), and
  the claim needs no algebraic law and never opens the inputs' finiteness:
    * the reference's last stage is `G` of the arguments (`RefIsSpec.lean`);
    * the kernel body's stored value on a block, read at an index, is `G` at the corresponding row (`BodyAtIndex.lean`),
      and the 25 blocks tile the result array (`BlocksToArray.lean`);
    * the kernel's idealization rewrote nothing, so there is nothing for it to preserve.
-/
import proofs.«417792_j10720238371128_3_alg».proof.Defs
import proofs.«417792_j10720238371128_3_alg».proof.Proof.Gen.Kernel
import proofs.«417792_j10720238371128_3_alg».proof.Proof.Gen.Kernel.Skeleton
import proofs.«417792_j10720238371128_3_alg».proof.Proof.Gen.Kernel.Launch
import proofs.«417792_j10720238371128_3_alg».proof.Proof.Gen.Kernel.Points
import proofs.«417792_j10720238371128_3_alg».proof.Proof.Gen.Kernel.Frame
import proofs.«417792_j10720238371128_3_alg».proof.Proof.Gen.KernelIdeal
import proofs.«417792_j10720238371128_3_alg».proof.Proof.Gen.KernelIdeal.Skeleton
import proofs.«417792_j10720238371128_3_alg».proof.Proof.Gen.KernelIdeal.Launch
import proofs.«417792_j10720238371128_3_alg».proof.Proof.Gen.KernelIdeal.Points
import proofs.«417792_j10720238371128_3_alg».proof.Proof.Gen.KernelIdeal.Frame
import proofs.«417792_j10720238371128_3_alg».proof.Proof.Gen.ReferenceIdeal
import proofs.«417792_j10720238371128_3_alg».proof.Proof.Gen.Pre_finite_inputs
import proofs.«417792_j10720238371128_3_alg».proof.Proof.Gen.KernelIdeal.Value
import proofs.«417792_j10720238371128_3_alg».proof.Proof.Gen.ReferenceIdeal.Run
import proofs.«417792_j10720238371128_3_alg».proof.Proof.Gen.ReferenceIdeal.Read
import proofs.«417792_j10720238371128_3_alg».proof.Proof.RefIsSpec
import proofs.«417792_j10720238371128_3_alg».proof.Proof.BlocksToArray
import Idealize.ShloMosaic.Adequacy
import Idealize.ShloMosaic.Init

noncomputable section

namespace Cert.Proof

open Idealize.ShloMosaic Idealize.SL.Sem

/-- Each kernel program runs to the end without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel: nothing to preserve. -/
theorem preserves : Cert.preserves_Kernel_KernelIdeal := trivial

/-- From memories that agree on the three arguments both programs end with the result array at the specification `G`
    of those arguments: the kernel by its blocks, the reference by its stages. -/
theorem algebraic : Cert.algebraic_KernelIdeal_ReferenceIdeal := by
  intro m ρ m' ρ' _ hagree
  refine ⟨fun c => Cert.NeighborMax.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), Cert.NeighborMax.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.NeighborMax.Reference.stage_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
